-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S4096x1 : Shape := ⟨2, ![4096, 1]⟩
abbrev S512x6400 : Shape := ⟨2, ![512, 6400]⟩
abbrev S512x1 : Shape := ⟨2, ![512, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S4096x1, .f32⟩
  | .hbm, ⟨4, _⟩ => ⟨S4096, .f32⟩
  | .local _ .vmem, ⟨0, _⟩ => ⟨S512x6400, .f32⟩
  | .local _ .vmem, ⟨1, _⟩ => ⟨S512x6400, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v46 : BitVec 1 := Scalar.cmpi .eq arg1 c4_i32
  let v47 : BitVec 32 := Scalar.extui v46
  let c0_i32_18 : BitVec 32 := 0#32
  let v48 : BitVec 1 := Scalar.cmpi .ne v47 c0_i32_18
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x6400_S512x6400_0_0 : ∀ a, (![0, 0] : Fin 2 → Nat) a + S512x6400.size a ≤ S512x6400.size a
  h_S512x6400 : 0 < S512x6400.numel
  reduces_S512x6400_S512 : S512x6400.Reduces [1] S512
  shapeCasts_S512_S512x1 : S512.ShapeCasts S512x1
  iota_S512x6400_d1_w32 : S512x6400.Iotas .tc 32 [1]
  broadcasts_S512x1_S512x6400 : S512x1.Broadcasts S512x6400
  shapeCasts_S4096x1_S4096 : S4096x1.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x6400.size a ≤ S4096x32000.size a
  hwx0_0 : ∀ i : grid0.Coords, EltTy.bits .f32 = 32 ∨ (Rect.block (s := S4096x32000) S512x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

abbrev win0_0 : Pipeline.Window sig grid0 :=
  Pipeline.Window.ofSpec (Memref.whole main_arg0) S512x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 38
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x32000, .f32⟩
  | .hbm, ⟨3, _⟩ => ⟨S4096x32000, .f32⟩
  | .hbm, ⟨4, _⟩ => ⟨S_, .f32⟩
  | .hbm, ⟨5, _⟩ => ⟨S4096x32000, .f32⟩
  | .hbm, ⟨6, _⟩ => ⟨S4096x32000, .f32⟩
  | .hbm, ⟨7, _⟩ => ⟨S_, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x1, .i32⟩
  | .hbm, ⟨28, _⟩ => ⟨S4096x2, .i32⟩
  | .hbm, ⟨29, _⟩ => ⟨S_, .f32⟩
  | .hbm, ⟨30, _⟩ => ⟨S4096, .f32⟩
  | .hbm, ⟨31, _⟩ => ⟨S4096x32000, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  reducesTo_S4096x32000_S4096_d1 : S4096x32000.ReducesTo [1] S4096
  h_S_ : 0 < S_.numel
  scatter_S4096x32000_S4096x2_S4096_n_01_01_1_wf : ScatterDims.WF S4096x32000 S4096x2 S4096 [] [0, 1] [0, 1] 1

variable [Facts₀]

def scatter_S4096x32000_S4096x2_S4096_n_01_01_1 : ScatterDims S4096x32000 S4096x2 S4096 where
  updateWindowDims := []
  insertedWindowDims := [0, 1]
  scatterDimsToOperandDims := [0, 1]
  indexVectorDim := 1
  wf := scatter_S4096x32000_S4096x2_S4096_n_01_01_1_wf

class Facts : Prop extends Facts₀ where

variable [Facts]
-- ==== Proof.PreDecode.lean ====
/-
  What the precondition says, entry by entry.

  The precondition is the conjunction of three "for all entries" tests, each a reduction by `and` of a
  comparison: |x| < +inf over the float array, 0 ≤ t and t < 32000 (signed) over the integer array. When the
  conjunction is 1 every entry passes its test: each float entry is a real number, each integer entry lies
  in [0, 32000).
-/
import proofs.«400454_j16999480557993_1_alg».proof.Pre_finite_inputs
import proofs.«400454_j16999480557993_1_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

variable [Cert.Pre_finite_inputs.Facts]

/-- The result shape has rank 0, so it has exactly one index. -/
private instance : Subsingleton S_.Idx := ⟨fun a b => funext fun d => d.elim0⟩

/-- The word 0x7F800000 (sign 0, exponent all ones, fraction 0) is +∞. -/
private theorem ofBits_inf_f32 : Ideal.ofBits .f32 0x7F800000#32 = ⊤ := by
  simp [Ideal.ofBits, Ideal.ieee]

/-- An extended real whose absolute value max(a, −a) is below +∞ is a real number: +∞ fails directly,
    −∞ fails because its negation is +∞. -/
private theorem real_of_abs_lt_top (a : EReal) (h : max a (-a) < ⊤) : ∃ r : ℝ, a = (r : EReal) := by
  rw [max_lt_iff] at h
  induction a using EReal.rec with
  | bot => exact absurd h.2 (by simp)
  | coe r => exact ⟨r, rfl⟩
  | top => exact absurd h.1 (by simp)

/-- The conjunction split: the precondition being 1 makes each of the three tests 1 at every entry. -/
private theorem split_pre (x0 : FVec Ideal S4096x32000 .f32) (x1 : IVec S4096 32)
    (h : Cert.Pre_finite_inputs.fn (F := Ideal) x0 x1 = fun _ => 1#1) :
    (∀ i, Ideal.cmp .olt (max (x0 i) (-(x0 i))) (Ideal.ofBits .f32 0x7F800000#32) = 1#1) ∧
    (∀ j, IntOp.cmpi .sge (x1 j) 0#32 = 1#1) ∧
    (∀ j, IntOp.cmpi .slt (x1 j) 32000#32 = 1#1) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun j => ?_, fun j => ?_⟩
  · exact Host.reduce_andi_all _ _ _ _ _ h1 i
  · exact Host.reduce_andi_all _ _ _ _ _ h2 j
  · exact Host.reduce_andi_all _ _ _ _ _ h3 j

/-- Every entry of the float array is a real number. -/
theorem finite_of_pre (x0 : FVec Ideal S4096x32000 .f32) (x1 : IVec S4096 32)
    (h : Cert.Pre_finite_inputs.fn (F := Ideal) x0 x1 = fun _ => 1#1) :
    ∀ i, ∃ r : ℝ, x0 i = (r : EReal) := by
  intro i
  have hi := (split_pre x0 x1 h).1 i
  rw [ofBits_inf_f32] at hi
  unfold Ideal.cmp at hi
  rw [StableHlo.Predicate.ofBool_eq_one_iff, decide_eq_true_eq] at hi
  exact real_of_abs_lt_top (x0 i) hi

/-- Every entry of the integer array, read signed, is in [0, 32000). -/
theorem range_of_pre (x0 : FVec Ideal S4096x32000 .f32) (x1 : IVec S4096 32)
    (h : Cert.Pre_finite_inputs.fn (F := Ideal) x0 x1 = fun _ => 1#1) :
    ∀ j, 0 ≤ (x1 j).toInt ∧ (x1 j).toInt < 32000 := by
  intro j
  obtain ⟨-, hge, hlt⟩ := split_pre x0 x1 h
  have h1 := IntOp.cmpi_sge.1 (hge j)
  have h2 := IntOp.cmpi_slt.1 (hlt j)
  rw [show (0#32 : BitVec 32).toInt = 0 from by decide] at h1
  rw [show (32000#32 : BitVec 32).toInt = 32000 from by decide] at h2
  exact ⟨h1, h2⟩

end Cert.PreDecode

end
-- ==== Proof.LogSigmoid.lean ====
/-
  The logarithm of the logistic function, in the two spellings the programs use.

  For a real number x both
      log (1 / (1 + exp (-x)))                                  (a quotient, then a logarithm)
  and
      -(max (-x) 0 + log (1 + exp (-|(-x)|)))                   (the shifted, overflow-free form)
  equal  -log (1 + exp (-x)):  for x ≥ 0 the shift max (-x) 0 is 0 and |-x| = x; for x < 0 the
  shift is -x = log (exp (-x)) and  exp (-x) · (1 + exp x) = exp (-x) + 1.
-/
import Idealize.ShloMosaic.PureOps.Ideal
import Idealize.ShloMosaic.PureOps.Ideal.Laws
import Idealize.ShloMosaic.Lib.IdealHost
import Mathlib.Analysis.SpecialFunctions.Log.Basic

noncomputable section

namespace Cert.LogSigmoid

open Idealize.ShloMosaic

/-- The common value: minus the logarithm of 1 + exp (-x). -/
def L (x : ℝ) : ℝ := -Real.log (1 + Real.exp (-x))

/-- The shifted form, operation by operation on the extended reals, with z the zero word's value:
    a = z - x, d = a - z, and the result z - (max a z + log1p (exp (z - |d|))); the guard "d ≠ d"
    selects a + z instead, and never holds on an order. -/
def lsK (x : EReal) : EReal :=
  let z : EReal := Ideal.ofBits .f32 0x00000000#32
  z - Scalar.select (Ideal.cmp .one ((z - x) - z) ((z - x) - z)) ((z - x) + z)
        (max (z - x) z + Ideal.log1p (Ideal.exp (z - max ((z - x) - z) (-((z - x) - z)))))

/-- The quotient form on the extended reals, with o the one word's value: log (o / (o + exp (-x))). -/
def lsR (x : EReal) : EReal :=
  let o : EReal := Ideal.ofBits .f32 0x3F800000#32
  Ideal.log (Ideal.div o (o + Ideal.exp (-x)))

/-- For 0 ≤ r the shift max (-r) 0 vanishes and max (-r) r = r; for r ≤ 0 the shift is
    -r = log (exp (-r)), and exp (-r) · (1 + exp r) = 1 + exp (-r). -/
private theorem shifted_eq (r : ℝ) :
    max (-r) 0 + Real.log (1 + Real.exp (-max (-r) r)) = Real.log (1 + Real.exp (-r)) := by
  rcases le_total 0 r with h | h
  · have h1 : max (-r) 0 = 0 := max_eq_right (by linarith)
    have h2 : max (-r) r = r := max_eq_right (by linarith)
    rw [h1, h2, zero_add]
  · have h1 : max (-r) 0 = -r := max_eq_left (by linarith)
    have h2 : max (-r) r = -r := max_eq_left (by linarith)
    rw [h1, h2, neg_neg]
    have hpos : (0 : ℝ) < 1 + Real.exp r := add_pos one_pos (Real.exp_pos r)
    have hmul : Real.exp (-r) * (1 + Real.exp r) = 1 + Real.exp (-r) := by
      rw [mul_add, mul_one, ← Real.exp_add, neg_add_cancel, Real.exp_zero, add_comm]
    rw [← hmul, Real.log_mul (Real.exp_pos _).ne' hpos.ne', Real.log_exp]

/-- The embedding of the reals in the extended reals keeps the order, hence maxima. -/
private theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The logarithm of a reciprocal is minus the logarithm. -/
private theorem log_one_div (e : ℝ) : Real.log (1 * (1 / e)) = -Real.log e := by
  rw [one_mul, one_div, Real.log_inv]

/-- On a real number the shifted form is L. -/
theorem lsK_coe (r : ℝ) : lsK (r : EReal) = ((L r : ℝ) : EReal) := by
  have hcmp : ∀ d : EReal, Ideal.cmp .one d d = 0#1 := by
    intro d
    simp [Ideal.cmp]
  have hd : ((0 : EReal) - (r : EReal)) = ((-r : ℝ) : EReal) := by
    rw [zero_sub, EReal.coe_neg]
  have hd0 : (((-r : ℝ) : EReal) - 0) = ((-r : ℝ) : EReal) := sub_zero _
  have hpos : ¬ (1 + Real.exp (-max (-r) r) ≤ 0) :=
    not_le.mpr (add_pos one_pos (Real.exp_pos _))
  unfold lsK
  simp only [Ideal.ofBits_zero_f32, hcmp, Scalar.select, hd, hd0]
  rw [if_neg (by decide)]
  -- the absolute value, as a maximum of real numbers
  have habs : max ((-r : ℝ) : EReal) (-((-r : ℝ) : EReal)) = ((max (-r) r : ℝ) : EReal) := by
    rw [← EReal.coe_neg, neg_neg, coe_max]
  -- the shift, as a maximum of real numbers
  have hshift : max ((-r : ℝ) : EReal) 0 = ((max (-r) 0 : ℝ) : EReal) := by
    rw [coe_max, EReal.coe_zero]
  have hneg : ∀ a : ℝ, (0 : EReal) - (a : EReal) = ((-a : ℝ) : EReal) := by
    intro a
    rw [zero_sub, EReal.coe_neg]
  have hone : ∀ a : ℝ, (1 : EReal) + (a : EReal) = ((1 + a : ℝ) : EReal) := by
    intro a
    rw [EReal.coe_add, EReal.coe_one]
  rw [habs, hshift, hneg, Ideal.exp_coe]
  unfold Ideal.log1p
  rw [hone, Ideal.log_coe, if_neg hpos, ← EReal.coe_add, hneg, shifted_eq]
  rfl

/-- On a real number the quotient form is L. -/
theorem lsR_coe (r : ℝ) : lsR (r : EReal) = ((L r : ℝ) : EReal) := by
  have hpos : (0 : ℝ) < 1 + Real.exp (-r) := add_pos one_pos (Real.exp_pos _)
  unfold lsR
  simp only [Ideal.ofBits_one_f32]
  have hone : ∀ a : ℝ, (1 : EReal) + (a : EReal) = ((1 + a : ℝ) : EReal) := by
    intro a
    rw [EReal.coe_add, EReal.coe_one]
  have hq : ¬ (1 * (1 / (1 + Real.exp (-r))) ≤ 0) := by
    rw [one_mul]
    exact not_le.mpr (one_div_pos.mpr hpos)
  rw [← EReal.coe_neg, Ideal.exp_coe, hone, Ideal.div_coe hpos.ne', ← EReal.coe_one, ← EReal.coe_mul,
    Ideal.log_coe, if_neg hq, log_one_div]
  rfl

end Cert.LogSigmoid

end
-- ==== Proof.Spec.lean ====
/-
  The loss of one row, as one function of the two argument arrays.

  With l = log ∘ logistic applied to every entry of row j of x, and t the row's target column,
      G x tg j = ( (the sum over the columns c of [c = t] · l(x j c))  -  (the sum over the columns of l(x j c)) ) / 32000.
  Zeroing the target entry of the row before summing removes exactly that entry from the sum, so the
  negated sum of the zeroed row is the same number whenever the target entry is a real number
  (`row_algebra`).
-/
import proofs.«400454_j16999480557993_1_alg».proof.Proof.LogSigmoid
import Idealize.ShloMosaic.Lib.ValueIdx

noncomputable section

namespace Cert.Spec

open Idealize.ShloMosaic Idealize.ShloMosaic.ValueIdx Cert.LogSigmoid
open scoped BigOperators

/-- The loss of row `j`: the target column's term minus the whole row's sum, over 32000. -/
def G (x : (⟨2, ![4096, 32000]⟩ : Shape).Idx → EReal) (tg : (⟨1, ![4096]⟩ : Shape).Idx → BitVec 32) :
    (⟨1, ![4096]⟩ : Shape).Idx → EReal := fun j =>
  Ideal.div ((∑ c : Fin 32000, if c.val = (tg j).toNat then lsK (x (ix2 (j 0) c)) else 0)
      - ∑ c : Fin 32000, lsK (x (ix2 (j 0) c)))
    (Ideal.ofBits .f32 0x46FA0000#32)

/-- The coercion of a finite sum of real numbers is the sum of the coercions. -/
private theorem coe_sum_real {n : ℕ} (s : Finset (Fin n)) (r : Fin n → ℝ) :
    ((∑ c ∈ s, r c : ℝ) : EReal) = ∑ c ∈ s, (r c : EReal) := by
  classical
  induction s using Finset.induction_on with
  | empty => rw [Finset.sum_empty, Finset.sum_empty, EReal.coe_zero]
  | insert a s ha ih => rw [Finset.sum_insert ha, Finset.sum_insert ha, EReal.coe_add, ih]

/-- One row: the term at column `t` minus the whole sum is minus the sum with column `t` zeroed, for real entries
    (`g` is the same row in another spelling). -/
theorem row_algebra {n : ℕ} (f g : Fin n → EReal) (t : ℕ) (hfg : ∀ c, f c = g c)
    (hreal : ∀ c : Fin n, ∃ r : ℝ, f c = (r : EReal)) :
    (∑ c : Fin n, if c.val = t then f c else 0) - ∑ c : Fin n, f c
      = -((0 : EReal) + ∑ c : Fin n, if c.val = t then 0 else g c) := by
  classical
  -- every entry is a real number: name the reals
  choose r hr using hreal
  have hg : ∀ c, g c = (r c : EReal) := fun c => (hfg c).symm.trans (hr c)
  -- the three sums are the coercions of the corresponding real sums
  have h1 : (∑ c : Fin n, if c.val = t then f c else 0)
      = ((∑ c : Fin n, if c.val = t then r c else 0 : ℝ) : EReal) := by
    rw [coe_sum_real]
    refine Finset.sum_congr rfl (fun c _ => ?_)
    split_ifs
    · exact hr c
    · exact EReal.coe_zero.symm
  have h2 : (∑ c : Fin n, f c) = ((∑ c : Fin n, r c : ℝ) : EReal) := by
    rw [coe_sum_real]
    exact Finset.sum_congr rfl (fun c _ => hr c)
  have h3 : (∑ c : Fin n, if c.val = t then 0 else g c)
      = ((∑ c : Fin n, if c.val = t then 0 else r c : ℝ) : EReal) := by
    rw [coe_sum_real]
    refine Finset.sum_congr rfl (fun c _ => ?_)
    split_ifs
    · exact EReal.coe_zero.symm
    · exact hg c
  -- the whole real sum splits into the target term and the rest
  have hsplit : (∑ c : Fin n, r c)
      = (∑ c : Fin n, if c.val = t then r c else 0) + ∑ c : Fin n, if c.val = t then 0 else r c := by
    rw [← Finset.sum_add_distrib]
    refine Finset.sum_congr rfl (fun c _ => ?_)
    split_ifs
    · rw [add_zero]
    · rw [zero_add]
  -- now the claim is an identity between real numbers: T - (T + R) = -(0 + R)
  rw [h1, h2, h3, ← EReal.coe_zero, ← EReal.coe_add, ← EReal.coe_sub, ← EReal.coe_neg]
  congr 1
  rw [hsplit]
  ring

end Cert.Spec

end
-- ==== Proof.ScatterRead.lean ====
/-
  A set-scatter of one value per row, read at an element.

  The scatter indices are pairs (row, column), one pair per row b: the pair's row is b itself and its column
  is in range. Every update then lands inside the array, at (b, column b), no two on one element; all updates
  carry the same value z. So the scattered array holds z at (b, column b) and the operand everywhere else.
-/
import proofs.«400454_j16999480557993_1_alg».proof.ReferenceIdeal
import Idealize.ShloMosaic.Lib.ValueIdx
import Idealize.ShloMosaic.Lib.StableHlo.Predicate

noncomputable section

namespace Cert.ScatterRead

open Idealize.ShloMosaic Idealize.ShloMosaic.ValueIdx Cert.ReferenceIdeal

variable [Cert.ReferenceIdeal.Facts]

open Classical in
/-- A left fold whose step at n writes the constant z on the element g n (and nothing when g n is none):
    the result holds z exactly on the elements some n of the list points at, the start value elsewhere.
    Induction on the list, the start value general: an element a later n points at is z whatever the head did;
    an element no later n points at has the value the head's step gave it. -/
private theorem foldl_set_apply {ι I α : Type} (g : ι → Option I) (z : α)
    (step : (I → α) → ι → I → α)
    (hstep : ∀ r n i', step r n i' = if g n = some i' then z else r i')
    (l : List ι) (x : I → α) (i' : I) :
    (l.foldl step x) i' = if ∃ n ∈ l, g n = some i' then z else x i' := by
  induction l generalizing x with
  | nil => simp
  | cons a l ih =>
    rw [List.foldl_cons, ih, hstep]
    by_cases h1 : ∃ n ∈ l, g n = some i'
    · have h2 : ∃ n ∈ a :: l, g n = some i' := by
        obtain ⟨n, hn, e⟩ := h1
        exact ⟨n, List.mem_cons_of_mem _ hn, e⟩
      rw [if_pos h1, if_pos h2]
    · rw [if_neg h1]
      by_cases h3 : g a = some i'
      · rw [if_pos h3, if_pos ⟨a, List.mem_cons_self .., h3⟩]
      · rw [if_neg h3, if_neg]
        rintro ⟨n, hn, e⟩
        rcases List.mem_cons.1 hn with rfl | hn
        · exact h3 e
        · exact h1 ⟨n, hn, e⟩

/-- The scatter's dimension numbers. -/
private abbrev D := scatter_S4096x32000_S4096x2_S4096_n_01_01_1

/-- Both operand axes are inserted window axes: none is kept. -/
private theorem sKept_nil : D.sKept = [] := rfl

/-- With no kept axis the window coordinate is 0 on every operand axis. -/
private theorem window_zero (j : S4096.Idx) (a : Fin 2) : D.window j a = 0 := by
  unfold ScatterDims.window
  rw [dif_neg]
  rw [sKept_nil]
  exact List.not_mem_nil

/-- Update b reads component k of its start index at (b, k) of the scatter indices: the index vector's axis
    is the second one, and the first one carries the update's only coordinate. -/
private theorem siIdx_eq (b : Fin 4096) (c : Fin D.scatterDimsToOperandDims.length) :
    D.siIdx (ix1 b) c = ix2 b (⟨c.val, c.isLt⟩ : Fin 2) := by
  funext a
  match a with
  | ⟨0, _⟩ =>
    apply Fin.ext
    rfl
  | ⟨1, _⟩ =>
    apply Fin.ext
    rfl

/-- The start on the row axis is the pair's first component, read signed. -/
private theorem start_zero (idx : IVec S4096x2 32) (b : Fin 4096) :
    D.start (ix1 b) idx (0 : Fin 2) = (idx (ix2 b (0 : Fin 2))).toInt := by
  unfold ScatterDims.start
  have h0 : (0 : Fin 2) ∈ D.scatterDimsToOperandDims := List.Mem.head _
  rw [dif_pos h0, siIdx_eq]
  rfl

/-- The start on the column axis is the pair's second component, read signed. -/
private theorem start_one (idx : IVec S4096x2 32) (b : Fin 4096) :
    D.start (ix1 b) idx (1 : Fin 2) = (idx (ix2 b (1 : Fin 2))).toInt := by
  unfold ScatterDims.start
  have h1 : (1 : Fin 2) ∈ D.scatterDimsToOperandDims := List.Mem.tail _ (List.Mem.head _)
  rw [dif_pos h1, siIdx_eq]
  rfl

/-- A 32-bit word whose signed value is not negative has that value equal to its unsigned one: a word of
    unsigned value 2^31 or more reads signed as that value less 2^32, which is negative. -/
private theorem toInt_eq_toNat_of_nonneg (w : BitVec 32) (h : 0 ≤ w.toInt) : w.toInt = (w.toNat : Int) := by
  have hlt := w.isLt
  by_cases hc : 2 * w.toNat < 2 ^ 32
  · rw [BitVec.toInt_eq_toNat_cond, if_pos hc]
  · rw [BitVec.toInt_eq_toNat_cond, if_neg hc] at h
    omega

/-- Where update b lands: the start is (b, column b), the window adds nothing, and both coordinates are inside
    the array, so the update is kept and its place is (b, column b). -/
private theorem resultIdx_eq (idx : IVec S4096x2 32)
    (hrow : ∀ b : Fin 4096, idx (ix2 b (0 : Fin 2)) = BitVec.ofNat 32 b.val)
    (hcol : ∀ b : Fin 4096, 0 ≤ (idx (ix2 b (1 : Fin 2))).toInt ∧ (idx (ix2 b (1 : Fin 2))).toInt < 32000)
    (b : Fin 4096) (hlt : (idx (ix2 b (1 : Fin 2))).toNat < 32000) :
    D.resultIdx? (ix1 b) idx = some (ix2 b ⟨(idx (ix2 b (1 : Fin 2))).toNat, hlt⟩) := by
  have hs0 : D.start (ix1 b) idx (0 : Fin 2) + D.window (ix1 b) (0 : Fin 2) = (b.val : Int) := by
    rw [start_zero, window_zero, hrow, StableHlo.Predicate.toInt_ofNat_small b.val (by have := b.isLt; omega)]
    simp
  have hs1 : D.start (ix1 b) idx (1 : Fin 2) + D.window (ix1 b) (1 : Fin 2)
      = ((idx (ix2 b (1 : Fin 2))).toNat : Int) := by
    rw [start_one, window_zero, toInt_eq_toNat_of_nonneg _ (hcol b).1]
    simp
  have h : ∀ a : Fin 2, 0 ≤ D.start (ix1 b) idx a + D.window (ix1 b) a ∧
      D.start (ix1 b) idx a + D.window (ix1 b) a < S4096x32000.size a := by
    refine Fin.forall_fin_two.2 ⟨?_, ?_⟩
    · rw [hs0]
      have := b.isLt
      show (0 : Int) ≤ b.val ∧ (b.val : Int) < (4096 : Nat)
      omega
    · rw [hs1]
      show (0 : Int) ≤ _ ∧ (_ : Int) < (32000 : Nat)
      omega
  unfold ScatterDims.resultIdx?
  rw [dif_pos h]
  congr 1
  funext a
  match a with
  | ⟨0, _⟩ =>
    apply Fin.ext
    show (D.start (ix1 b) idx (0 : Fin 2) + D.window (ix1 b) (0 : Fin 2)).toNat = b.val
    rw [hs0]
    rfl
  | ⟨1, _⟩ =>
    apply Fin.ext
    show (D.start (ix1 b) idx (1 : Fin 2) + D.window (ix1 b) (1 : Fin 2)).toNat = (idx (ix2 b (1 : Fin 2))).toNat
    rw [hs1]
    rfl

/-- The scattered array at (b, c): the common update value where c is row b's column, the operand elsewhere. -/
theorem scatter_rows_set {α : Type} (x : S4096x32000.Idx → α) (idx : IVec S4096x2 32) (upd : S4096.Idx → α) (z : α)
    (hupd : ∀ j, upd j = z)
    (hrow : ∀ b : Fin 4096, idx (ix2 b (0 : Fin 2)) = BitVec.ofNat 32 b.val)
    (hcol : ∀ b : Fin 4096, 0 ≤ (idx (ix2 b (1 : Fin 2))).toInt ∧ (idx (ix2 b (1 : Fin 2))).toInt < 32000)
    (b : Fin 4096) (c : Fin 32000) :
    Host.scatter scatter_S4096x32000_S4096x2_S4096_n_01_01_1 (fun _ u => u) x idx upd (ix2 b c)
      = if c.val = (idx (ix2 b (1 : Fin 2))).toNat then z else x (ix2 b c) := by
  -- every update carries z
  have hupd' : upd = fun _ => z := funext hupd
  subst hupd'
  -- a column word that is in range read signed is in range read unsigned
  have hcolNat : ∀ b' : Fin 4096, (idx (ix2 b' (1 : Fin 2))).toNat < 32000 := by
    intro b'
    have h := hcol b'
    rw [toInt_eq_toNat_of_nonneg _ h.1] at h
    omega
  -- the fold holds z exactly on the elements some update lands at
  unfold Host.scatter
  rw [foldl_set_apply (fun n => D.resultIdx? (S4096.rowMajor.symm n) idx) z]
  · by_cases hc : c.val = (idx (ix2 b (1 : Fin 2))).toNat
    · -- c is row b's column: update b lands at (b, c)
      rw [if_pos hc, if_pos]
      refine ⟨S4096.rowMajor (ix1 b), List.mem_finRange _, ?_⟩
      show D.resultIdx? (S4096.rowMajor.symm (S4096.rowMajor (ix1 b))) idx = _
      rw [Equiv.symm_apply_apply, resultIdx_eq idx hrow hcol b (hcolNat b)]
      congr 2
      exact Fin.ext hc.symm
    · -- c is not row b's column: an update b' landing at (b, c) would have b' = b and column b' = c
      rw [if_neg hc, if_neg]
      rintro ⟨n, -, e⟩
      obtain ⟨b', hb'⟩ : ∃ b', S4096.rowMajor.symm n = ix1 b' := ⟨_, eq_ix1 _⟩
      have e2 : D.resultIdx? (ix1 b') idx = some (ix2 b c) := by rw [← hb']; exact e
      rw [resultIdx_eq idx hrow hcol b' (hcolNat b')] at e2
      have e' := Option.some.inj e2
      have e0 : b' = b := congrFun e' (0 : Fin 2)
      subst e0
      have e1 : (⟨(idx (ix2 b' (1 : Fin 2))).toNat, hcolNat b'⟩ : Fin 32000) = c := congrFun e' (1 : Fin 2)
      exact hc (congrArg Fin.val e1).symm
  · -- the scatter's step is the step of the fold lemma: it writes z at the landing place, if there is one
    intro r n i'
    cases h : D.resultIdx? (S4096.rowMajor.symm n) idx with
    | none =>
      show r i' = _
      exact (if_neg (Option.some_ne_none i').symm).symm
    | some i =>
      show (if i' = i then z else r i') = _
      by_cases hi : i' = i
      · subst hi
        rw [if_pos rfl, if_pos rfl]
      · rw [if_neg hi, if_neg (fun e => hi (Option.some.inj e).symm)]

end Cert.ScatterRead

end
-- ==== Proof.RefValue.lean ====
/-
  The reference's result is the row loss G.

  Stage by stage: every entry of the operand of the scatter is log (1 / (1 + exp (-x))) of the input's entry; the
  scatter indices are the pairs (row b, target b), because a row number is never negative and a target in
  [0, 32000) is not shifted; so the scattered array is that operand with each row's target entry zeroed; the
  result is minus the row sum of it, over 32000. On real entries the quotient form and the shifted form of
  log ∘ logistic agree, and removing one real entry from a sum is subtracting it (`Spec.row_algebra`).
-/
import proofs.«400454_j16999480557993_1_alg».proof.Proof.Gen.ReferenceIdeal.Read
import proofs.«400454_j16999480557993_1_alg».proof.Proof.Spec
import proofs.«400454_j16999480557993_1_alg».proof.Proof.ScatterRead
import Idealize.ShloMosaic.Lib.StableHlo.Predicate

noncomputable section

namespace Cert.RefValue

open Idealize.ShloMosaic Idealize.ShloMosaic.ValueIdx Cert.ReferenceIdeal Cert.ReferenceIdeal.Gen Cert.ReferenceIdeal.Read
open Cert.LogSigmoid Cert.Spec
open scoped BigOperators

/-- A word whose signed value is not negative is not signed-below the zero word. -/
private theorem slt_zero_ne_one (a : BitVec 32) (h : 0 ≤ a.toInt) : IntOp.cmpi .slt a 0#32 ≠ 1#1 := by
  intro hc
  unfold IntOp.cmpi at hc
  rw [StableHlo.Predicate.ofBool_eq_one_iff] at hc
  have h0 : (0#32 : BitVec 32).toInt = 0 := by decide
  simp only [BitVec.slt, h0, decide_eq_true_eq] at hc
  omega

/-- Every entry of the scatter's operand is the quotient form of log ∘ logistic at the input's entry. -/
private theorem v6_eq (x0 : (⟨S4096x32000, .f32⟩ : BufTy).Contents (Elt Ideal)) (i : S4096x32000.Idx) :
    val_main_v6 (F := Ideal) x0 i = lsR (x0 i) := by
  rw [val_main_v6_apply, val_main_v5_apply, val_main_v4_apply, val_main_cst_0_apply, val_main_v3_apply,
    val_main_v2_apply, val_main_cst_apply, val_main_v1_apply, val_main_v0_apply]
  rfl

/-- The row-number column: the iota's entry is never negative, so the wrap-around select keeps it. -/
private theorem v12_eq (j : S4096.Idx) : val_main_v12 (F := Ideal) j = BitVec.ofNat 32 (j 0).val := by
  rw [val_main_v12_apply, val_main_v9_apply, val_main_v8_apply, val_main_c_apply, val_main_v7_apply]
  have hlt : (j 0).val < 2 ^ 31 := lt_trans (j 0).isLt (by norm_num)
  have hneg := slt_zero_ne_one (BitVec.ofNat 32 (j 0).val)
    (by rw [StableHlo.Predicate.toInt_ofNat_small _ hlt]; exact Int.natCast_nonneg _)
  exact if_neg hneg

/-- The target column: a target that is not negative is kept by the wrap-around select. -/
private theorem v17_eq (x1 : (⟨S4096, .i32⟩ : BufTy).Contents (Elt Ideal)) (j : S4096.Idx) (h : 0 ≤ (x1 j).toInt) :
    val_main_v17 (F := Ideal) x1 j = x1 j := by
  rw [val_main_v17_apply, val_main_v14_apply, val_main_v13_apply, val_main_c_2_apply]
  exact if_neg (slt_zero_ne_one _ h)

/-- The scatter's index pair of row b has the row number b in its first place … -/
private theorem v20_row (x1 : (⟨S4096, .i32⟩ : BufTy).Contents (Elt Ideal)) (b : Fin 4096) :
    val_main_v20 (F := Ideal) x1 (ix2 b (0 : Fin 2)) = BitVec.ofNat 32 b.val := by
  unfold val_main_v20
  rw [concatenate_pair_apply_left (t := S4096x2) (s₁ := S4096x1) (s₂ := S4096x1) (1 : Fin 2) _ _
    concatenates_S4096x1_S4096x1_S4096x2_d1 (ix2 b (0 : Fin 2)) rfl (ix2 b (0 : Fin 1))
    (fun a => by match a with | ⟨0, _⟩ => rfl | ⟨1, _⟩ => rfl)]
  rw [val_main_v18_apply, v12_eq]

/-- … and the row's target in its second place, when the target is not negative. -/
private theorem v20_col (x1 : (⟨S4096, .i32⟩ : BufTy).Contents (Elt Ideal)) (b : Fin 4096)
    (h : 0 ≤ (x1 (ix1 b)).toInt) :
    val_main_v20 (F := Ideal) x1 (ix2 b (1 : Fin 2)) = x1 (ix1 b) := by
  unfold val_main_v20
  rw [concatenate_pair_apply_right (t := S4096x2) (s₁ := S4096x1) (s₂ := S4096x1) (1 : Fin 2) _ _
    concatenates_S4096x1_S4096x1_S4096x2_d1 (ix2 b (1 : Fin 2)) rfl rfl (ix2 b (0 : Fin 1))
    (fun a ha => by
      match a with
      | ⟨0, _⟩ => rfl
      | ⟨1, _⟩ => exact absurd rfl ha)
    rfl]
  rw [val_main_v19_apply]
  have hidx : idx_main_v19 (ix2 b (0 : Fin 1)) = ix1 b := by
    funext a; match a with | ⟨0, _⟩ => rfl
  rw [hidx, v17_eq x1 (ix1 b) h]

/-- The scattered array at (b, c): zero at the row's target column, the operand's entry elsewhere. -/
private theorem v22_eq (x0 : (⟨S4096x32000, .f32⟩ : BufTy).Contents (Elt Ideal))
    (x1 : (⟨S4096, .i32⟩ : BufTy).Contents (Elt Ideal))
    (hrange : ∀ j, 0 ≤ (x1 j).toInt ∧ (x1 j).toInt < 32000) (b : Fin 4096) (c : Fin 32000) :
    val_main_v22 (F := Ideal) x0 x1 (ix2 b c)
      = if c.val = (x1 (ix1 b)).toNat then 0 else lsR (x0 (ix2 b c)) := by
  unfold val_main_v22
  rw [Cert.ScatterRead.scatter_rows_set (val_main_v6 (F := Ideal) x0) (val_main_v20 (F := Ideal) x1)
    (val_main_v21 (F := Ideal)) (0 : EReal)
    (fun j => by rw [val_main_v21_apply, val_main_cst_4_apply]; exact Ideal.ofBits_zero_f32)
    (fun b' => v20_row x1 b')
    (fun b' => by rw [v20_col x1 b' (hrange _).1]; exact hrange _)
    b c]
  rw [v20_col x1 b (hrange _).1, v6_eq]

/-- The reduction's source index of row b at column k is the pair (b, k). -/
private theorem idx23_eq (b : Fin 4096) (k : Fin 32000) : idx_main_v23 (ix1 b) k = ix2 b k := by
  funext a
  match a with
  | ⟨0, _⟩ => rfl
  | ⟨1, _⟩ => rfl

/-- On finite float entries and in-range targets the reference's last stage is G of the two arguments. -/
theorem ref_eq_G (x0 : (⟨S4096x32000, .f32⟩ : BufTy).Contents (Elt Ideal)) (x1 : (⟨S4096, .i32⟩ : BufTy).Contents (Elt Ideal))
    (hfin : ∀ i, ∃ r : ℝ, x0 i = (r : EReal))
    (hrange : ∀ j, 0 ≤ (x1 j).toInt ∧ (x1 j).toInt < 32000) :
    val_main_v26 (F := Ideal) x0 x1 = Cert.Spec.G x0 x1 := by
  funext j
  obtain ⟨b, rfl⟩ : ∃ b : Fin 4096, j = ix1 b := ⟨j 0, eq_ix1 j⟩
  -- the last stage at row b: minus (zero plus the row sum of the scattered array), over the word of 32000
  rw [val_main_v26_apply, val_main_v25_apply, val_main_cst_6_apply, val_main_v24_apply, val_main_v23_apply,
    val_main_cst_5_apply]
  simp only [idx23_eq, v22_eq x0 x1 hrange]
  rw [Ideal.hostDivf_def, Ideal.hostNegf_def, Ideal.negf_def, Ideal.ofBits_def, Ideal.ofBits_def,
    Ideal.ofBits_zero_f32]
  -- the specification's numerator is the same number, by the row identity on real entries
  unfold Cert.Spec.G
  have hrow := row_algebra (fun c : Fin 32000 => lsK (x0 (ix2 b c))) (fun c : Fin 32000 => lsR (x0 (ix2 b c)))
    (x1 (ix1 b)).toNat
    (fun c => by
      obtain ⟨r, hr⟩ := hfin (ix2 b c)
      show lsK (x0 (ix2 b c)) = lsR (x0 (ix2 b c))
      rw [hr, lsK_coe, lsR_coe])
    (fun c => by
      obtain ⟨r, hr⟩ := hfin (ix2 b c)
      exact ⟨L r, by show lsK (x0 (ix2 b c)) = _; rw [hr, lsK_coe]⟩)
  show _ = Ideal.div ((∑ c : Fin 32000, if c.val = (x1 (ix1 b)).toNat then lsK (x0 (ix2 b c)) else 0)
      - ∑ c : Fin 32000, lsK (x0 (ix2 b c))) (Ideal.ofBits .f32 0x46FA0000#32)
  rw [hrow]

end Cert.RefValue

end
-- ==== Proof.KernelPieces.lean ====
/-
  What one grid point leaves in the two running-sum buffers and in the output block.

  At every point the body adds the block's row sums of l = log ∘ logistic to the first buffer, and the row sums of
  the entries of l at the row's target column to the second. At the first column block of a row block both buffers
  are set to zero before that; at the last one the output block is stored: (second − first) / 32000.
-/
import proofs.«400454_j16999480557993_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen

variable {F : FTy → Type} [FloatOps F]

theorem hz : (![0, 0] : Fin 2 → Nat) = fun _ => 0 := funext fun a => by fin_cases a <;> rfl

/-- First column block: the row-sum buffer is zeroed, then the block's row sums are added. -/
theorem sumA_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x6400 .f32) (x1 : Vec F S512x1 .i32) :
    sout0_A_0 c i arg2 harg2 arg3 harg3 arg4 harg4 arg5 harg5 arg6 harg6 hc0 hc1 x0 x1 = k0_pay6 x0 k0_pay3 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, harg6.read_unread, View.ld_unit_zero (S := S512x6400) hz, View.ld_unit_zero (S := S512x1) hz]

/-- First column block: the target buffer is zeroed, then the block's masked row sums are added. -/
theorem tgtA_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x6400 .f32) (x1 : Vec F S512x1 .i32) :
    sout0_A_1 c i arg2 harg2 arg3 harg3 arg4 harg4 arg5 harg5 arg6 harg6 hc0 hc1 x0 x1 = k0_pay1 (k0_pay5 x0) (k0_pay7 i x1) k0_pay4 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, harg6.read_unread, View.ld_unit_zero (S := S512x6400) hz, View.ld_unit_zero (S := S512x1) hz]

/-- A middle column block adds its row sums to what the block before left. -/
theorem sumB_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x6400 .f32) (x1 : Vec F S512x1 .i32) (xs0 xs1 : Vec F S512x1 .f32) :
    sout0_B_0 c i arg2 harg2 arg3 harg3 arg4 harg4 arg5 harg5 arg6 harg6 hc0 hc1 x0 x1 xs0 xs1 = k0_pay6 x0 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz]

/-- A middle column block adds its masked row sums to what the block before left. -/
theorem tgtB_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x6400 .f32) (x1 : Vec F S512x1 .i32) (xs0 xs1 : Vec F S512x1 .f32) :
    sout0_B_1 c i arg2 harg2 arg3 harg3 arg4 harg4 arg5 harg5 arg6 harg6 hc0 hc1 x0 x1 xs0 xs1 = k0_pay1 (k0_pay5 x0) (k0_pay7 i x1) xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz]

/-- The last column block adds its row sums likewise. -/
theorem sumC_0 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x6400 .f32) (x1 : Vec F S512x1 .i32) (xs0 xs1 : Vec F S512x1 .f32) :
    sout0_C_0 c i arg2 harg2 arg3 harg3 arg4 harg4 arg5 harg5 arg6 harg6 hc0 hc1 x0 x1 xs0 xs1 = k0_pay6 x0 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz]

/-- The last column block adds its masked row sums likewise. -/
theorem tgtC_1 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x6400 .f32) (x1 : Vec F S512x1 .i32) (xs0 xs1 : Vec F S512x1 .f32) :
    sout0_C_1 c i arg2 harg2 arg3 harg3 arg4 harg4 arg5 harg5 arg6 harg6 hc0 hc1 x0 x1 xs0 xs1 = k0_pay1 (k0_pay5 x0) (k0_pay7 i x1) xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread, View.ld_unit_zero (S := S512x6400) hz, View.ld_unit_zero (S := S512x1) hz]

/-- At the last column block the output block is the difference of the two buffers' final contents over 32000. -/
theorem outC_2 (c : Dev nD) (i : grid0.Coords) (arg2 : Memref sig .tc .vmem S512x6400 .f32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x6400 .f32) (x1 : Vec F S512x1 .i32) (xs0 xs1 : Vec F S512x1 .f32) :
    out0_C_2 c i arg2 harg2 arg3 harg3 arg4 harg4 arg5 harg5 arg6 harg6 hc0 hc1 x0 x1 xs0 xs1 = k0_pay2 (k0_pay1 (k0_pay5 x0) (k0_pay7 i x1) xs1) (k0_pay6 x0 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readCov_unit_zero (S := S512x1) _ hz, View.readAt_eq_ld, harg2.read_unread, harg3.read_unread, harg5.read_unread, harg6.read_unread, View.ld_unit_zero (S := S512x6400) hz, View.ld_unit_zero (S := S512x1) hz]

end Cert.KernelValue

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.KernelPayload.lean ====
/-
  The body's arithmetic, read at an index.

  With l the shifted form of log ∘ logistic: the block of l-values is l of the input block entry by entry; the update of
  the row-sum buffer is its old value plus the sum of the row's l-values; the mask at (r, q) of column block k says
  that column 6400·k + q is row r's target; the update of the target buffer is its old value plus the sum of the row's
  masked l-values; the output is the difference of the two buffers over the word of 32000.
-/
import proofs.«400454_j16999480557993_1_alg».proof.Proof.Gen.KernelIdeal.Skeleton
import proofs.«400454_j16999480557993_1_alg».proof.Proof.LogSigmoid
import proofs.«400454_j16999480557993_1_alg».proof.Proof.LibRows
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Idealize.ShloMosaic.Rows Cert.LogSigmoid
open scoped BigOperators

/-- Entry by entry the block of l-values is the shifted form applied to the input block. -/
theorem pay5_apply (v3 : Vec Ideal S512x6400 .f32) (j : S512x6400.Idx) : k0_pay5 (F := Ideal) v3 j = lsK (v3 j) := rfl

/-- The two resets store zero. -/
theorem pay3_apply (j : S512x1.Idx) : k0_pay3 (F := Ideal) j = 0 := by
  unfold k0_pay3; rw [shapeCast_self]; exact Ideal.ofBits_zero_f32
theorem pay4_apply (j : S512x1.Idx) : k0_pay4 (F := Ideal) j = 0 := by
  unfold k0_pay4; rw [shapeCast_self]; exact Ideal.ofBits_zero_f32

/-- A sum along axis 1 followed by the added unit axis, read at (r, 0): the sum of row r. -/
theorem sum_col (x : FVec Ideal S512x6400 .f32) (r : Fin 512) :
    (shapeCast S512x1 (multiReduction .add [1] S512 x 0x00000000#32 reduces_S512x6400_S512 (.inl rfl) rfl) shapeCasts_S512_S512x1)
        (ix2 r (0 : Fin 1)) = ∑ q : Fin 6400, x (ix2 r q) := by
  refine (shapeCast_apply _ shapeCasts_S512_S512x1 (ix2 r (0 : Fin 1)) (ix1 r) (by
    rw [Shape.rowMajor_val_two, Shape.rowMajor_val_one]; show r.val = r.val * 1 + 0; omega)).trans ?_
  refine (Ideal.multiReduction_add_single x _ reduces_S512x6400_S512 _ _ (ix1 r)).trans ?_
  exact Finset.sum_congr rfl fun q _ => congrArg x (lift_ix1 reduces_S512x6400_S512 r q)

/-- The row-sum update: the old value of row r plus the sum of the row's l-values. -/
theorem pay6_apply (v3 : Vec Ideal S512x6400 .f32) (v22 : Vec Ideal S512x1 .f32) (r : Fin 512) :
    k0_pay6 (F := Ideal) v3 v22 (ix2 r (0 : Fin 1)) = v22 (ix2 r (0 : Fin 1)) + ∑ q : Fin 6400, lsK (v3 (ix2 r q)) := by
  unfold k0_pay6
  rw [shapeCast_self]
  show v22 (ix2 r (0 : Fin 1)) + (shapeCast S512x1 _ shapeCasts_S512_S512x1) (ix2 r (0 : Fin 1)) = _
  refine congrArg (v22 (ix2 r (0 : Fin 1)) + ·) ?_
  exact sum_col (k0_pay5 (F := Ideal) v3) r

/-- The quotient at the end. -/
theorem pay2_apply (v49 v50 : Vec Ideal S512x1 .f32) (j : S512x1.Idx) :
    k0_pay2 (F := Ideal) v49 v50 j = Ideal.div (v49 j - v50 j) (Ideal.ofBits .f32 0x46FA0000#32) := rfl

/-- A word built from a number below 2^32 equals a word exactly when the number is the word's value. -/
theorem ofNat_eq_iff (n : ℕ) (hn : n < 2 ^ 32) (w : BitVec 32) : BitVec.ofNat 32 n = w ↔ n = w.toNat := by
  constructor
  · intro h; rw [← h, BitVec.toNat_ofNat, Nat.mod_eq_of_lt hn]
  · intro h; rw [h, BitVec.ofNat_toNat, BitVec.setWidth_eq]

/-- The mask of column block `(i 1)` at (r, q): column 6400·(i 1) + q is the word the row's target holds. -/
theorem pay7_apply (i : grid0.Coords) (v33 : Vec Ideal S512x1 .i32) (r : Fin 512) (q : Fin 6400) :
    k0_pay7 (F := Ideal) i v33 (ix2 r q)
      = IntOp.cmpi .eq (BitVec.ofNat 32 (6400 * (i 1).val + q.val)) (v33 (ix2 r (0 : Fin 1))) := by
  unfold k0_pay7
  rw [shapeCast_self]
  have hb : (broadcastTo S512x6400 (v33 : IVec S512x1 32) broadcasts_S512x1_S512x6400) (ix2 r q) = v33 (ix2 r (0 : Fin 1)) :=
    broadcastTo_apply (v33 : IVec S512x1 32) broadcasts_S512x1_S512x6400 (ix2 r q) (ix2 r (0 : Fin 1)) (by
      intro a
      match a with
      | ⟨0, _⟩ => rfl
      | ⟨1, _⟩ => rfl)
  show IntOp.cmpi .eq (IntOp.addi (Scalar.muli (BitVec.ofNat 32 (i 1).val) 6400#32) (iota .tc S512x6400 32 [1] iota_S512x6400_d1_w32 (ix2 r q))) _ = _
  rw [hb]
  congr 1
  show BitVec.ofNat 32 (i 1).val * BitVec.ofNat 32 6400 + BitVec.ofNat 32 (0 * 6400 + q.val) = _
  rw [← BitVec.ofNat_mul, ← BitVec.ofNat_add]
  congr 1
  omega

/-- The target update: the old value of row r plus the sum over the row of the masked l-values. -/
theorem pay1_apply (v21 : FVec Ideal S512x6400 .f32) (v36 : IVec S512x6400 1) (v37 : Vec Ideal S512x1 .f32) (r : Fin 512) :
    k0_pay1 (F := Ideal) v21 v36 v37 (ix2 r (0 : Fin 1))
      = v37 (ix2 r (0 : Fin 1)) + ∑ q : Fin 6400, (if v36 (ix2 r q) = 1#1 then v21 (ix2 r q) else 0) := by
  unfold k0_pay1
  rw [shapeCast_self]
  show v37 (ix2 r (0 : Fin 1)) + (shapeCast S512x1 _ shapeCasts_S512_S512x1) (ix2 r (0 : Fin 1)) = _
  refine congrArg (v37 (ix2 r (0 : Fin 1)) + ·) ?_
  refine (sum_col _ r).trans (Finset.sum_congr rfl fun q _ => ?_)
  show Scalar.select (v36 (ix2 r q)) (v21 (ix2 r q)) (Ideal.ofBits .f32 0x00000000#32) = _
  rw [Ideal.ofBits_zero_f32]; rfl

/-- One point's contribution to the target buffer, with the mask spelled as an equality of numbers. -/
theorem tgt_step (i : grid0.Coords) (x0 : Vec Ideal S512x6400 .f32) (x1 : Vec Ideal S512x1 .i32) (xs : Vec Ideal S512x1 .f32)
    (r : Fin 512) :
    k0_pay1 (F := Ideal) (k0_pay5 x0) (k0_pay7 i x1) xs (ix2 r (0 : Fin 1))
      = xs (ix2 r (0 : Fin 1)) + ∑ q : Fin 6400,
          (if 6400 * (i 1).val + q.val = (x1 (ix2 r (0 : Fin 1))).toNat then lsK (x0 (ix2 r q)) else 0) := by
  rw [pay1_apply]
  refine congrArg (xs (ix2 r (0 : Fin 1)) + ·) (Finset.sum_congr rfl fun q _ => ?_)
  rw [pay7_apply, pay5_apply]
  have hlt : 6400 * (i 1).val + q.val < 2 ^ 32 := by
    have h1 : (i 1).val < 5 := (i 1).isLt
    have h2 := q.isLt
    omega
  by_cases h : 6400 * (i 1).val + q.val = (x1 (ix2 r (0 : Fin 1))).toNat
  · rw [if_pos h, if_pos]
    show BitVec.ofBool (BitVec.ofNat 32 _ == _) = 1#1
    rw [(ofNat_eq_iff _ hlt _).2 h]; simp
  · rw [if_neg h, if_neg]
    show ¬ BitVec.ofBool (BitVec.ofNat 32 _ == _) = 1#1
    have hne : BitVec.ofNat 32 (6400 * (i 1).val + q.val) ≠ x1 (ix2 r (0 : Fin 1)) := fun e => h ((ofNat_eq_iff _ hlt _).1 e)
    rw [beq_eq_false_iff_ne.2 hne]; decide

end Cert.KernelValue

end
-- ==== Proof.RowBlocks.lean ====
/-
  A row of 32000 columns as five blocks of 6400.

  A sum over the columns is the sum over the blocks of the sums inside each block; the running total after the blocks
  0 … k (`upTo B k`) starts at the first block's sum, grows by one block's sum per step, and after block 4 is the
  whole sum.
-/
import Mathlib.Algebra.BigOperators.Fin
import Mathlib.Logic.Equiv.Fin.Basic

namespace Cert.RowBlocks

open scoped BigOperators

variable {M : Type*} [AddCommMonoid M]

/-- Column 6400·k + q of a row. -/
def col (k : Fin 5) (q : Fin 6400) : Fin 32000 := ⟨6400 * k.val + q.val, by have := k.isLt; have := q.isLt; omega⟩

/-- A sum over the 32000 columns, block by block. -/
theorem sum_blocks (g : Fin 32000 → M) : ∑ c, g c = ∑ k : Fin 5, ∑ q : Fin 6400, g (col k q) := by
  rw [← Fintype.sum_prod_type' (fun k q => g (col k q))]
  refine (Equiv.sum_comp (finProdFinEquiv (m := 5) (n := 6400)) g).symm.trans ?_
  refine Finset.sum_congr rfl fun p _ => congrArg g (Fin.ext ?_)
  show p.2.val + 6400 * p.1.val = 6400 * p.1.val + p.2.val
  omega

/-- The total of the blocks 0 … k. -/
def upTo (B : Fin 5 → M) (k : ℕ) : M := ∑ k' : Fin 5, if k'.val ≤ k then B k' else 0

theorem upTo_zero (B : Fin 5 → M) : upTo B 0 = B 0 := by
  simp [upTo, Fin.sum_univ_five]

theorem upTo_succ (B : Fin 5 → M) (k : ℕ) (hk : k + 1 < 5) : upTo B (k + 1) = upTo B k + B ⟨k + 1, hk⟩ := by
  have : k = 0 ∨ k = 1 ∨ k = 2 ∨ k = 3 := by omega
  rcases this with rfl | rfl | rfl | rfl <;> simp [upTo, Fin.sum_univ_five]

theorem upTo_four (B : Fin 5 → M) : upTo B 4 = ∑ k, B k := by
  refine Finset.sum_congr rfl fun k _ => if_pos ?_
  have := k.isLt; omega

end Cert.RowBlocks
-- ==== Proof.KernelInv.lean ====
/-
  What the two running-sum buffers hold after every grid point.

  Point t works on row block t / 5 and column block t % 5. For row r of the row block, write B k for the sum of the
  l-values of the row's columns in column block k, and T k for the sum of those of them that sit at the row's target
  column. After point t the first buffer holds B 0 + … + B (t % 5) and the second T 0 + … + T (t % 5): the first
  column block starts both from zero, every later one adds its own block (induction on the point).
-/
import proofs.«400454_j16999480557993_1_alg».proof.Proof.KernelPieces
import proofs.«400454_j16999480557993_1_alg».proof.Proof.KernelPayload
import proofs.«400454_j16999480557993_1_alg».proof.Proof.RowBlocks

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Cert.LogSigmoid Cert.RowBlocks
open scoped BigOperators

variable (m : (ℓ : Loc nD τ sig) → Buf (Elt Ideal) ℓ)

/-- The float array and the column of targets as the region finds them, and the two input blocks of a point. -/
abbrev xarr (c : Dev nD) : Vec Ideal S4096x32000 .f32 := V m c main_arg0
abbrev tarr (c : Dev nD) : Vec Ideal S4096x1 .i32 := V m c main_v0
abbrev xblk (c : Dev nD) (t : Fin cfg0.N) : Vec Ideal S512x6400 .f32 := iblk m c 0 t
abbrev tblk (c : Dev nD) (t : Fin cfg0.N) : Vec Ideal S512x1 .i32 := iblk m c 1 t

/-- Row 512·i0 + r of the arrays (reduced modulo 4096, which changes nothing for i0 < 8). -/
def rowN (i0 : ℕ) (r : Fin 512) : Fin 4096 := ⟨(512 * i0 + r.val) % 4096, Nat.mod_lt _ (by norm_num)⟩

theorem lt40 (t : Fin cfg0.N) : t.val < 40 := lt_of_lt_of_eq t.isLt (show cfg0.N = 40 from N_0)

/-- The index maps over the grid: point t reads row block t / 5, and column block t % 5 of the float array. -/
theorem idx0 : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)
theorem idx1 : ∀ t : Fin cfg0.N, win0_1.index t 0 = t.val / 5 ∧ win0_1.index t 1 = 0 :=
  (by decide +kernel : ∀ t : Fin grid0.N, win0_1.index t 0 = t.val / 5 ∧ win0_1.index t 1 = 0)
theorem coord1 : ∀ t : Fin cfg0.N, ((grid0.coords t) 1).val = t.val % 5 :=
  (by decide +kernel : ∀ t : Fin grid0.N, ((grid0.coords t) 1).val = t.val % 5)

/-- The float block of point t at (r, q) is the array at (512·(t/5) + r, 6400·(t%5) + q). -/
theorem xblk_apply (c : Dev nD) (t : Fin cfg0.N) (i0 : ℕ) (k : Fin 5) (hi : i0 = t.val / 5) (hk : k.val = t.val % 5)
    (r : Fin 512) (q : Fin 6400) :
    xblk m c t (ix2 r q) = xarr m c (ix2 (rowN i0 r) (col k q)) := by
  have ht := lt40 t
  show iblk m c 0 t (ix2 r q) = _
  unfold iblk
  rw [View.read_apply]
  show V m c main_arg0 _ = V m c main_arg0 _
  congr 1
  funext a
  apply Fin.ext
  match a with
  | ⟨0, _⟩ =>
    show win0_0.index t 0 * 512 + 1 * r.val = (512 * i0 + r.val) % 4096
    rw [(idx0 t).1, hi, Nat.mod_eq_of_lt (by have := r.isLt; omega)]; omega
  | ⟨1, _⟩ =>
    show win0_0.index t 1 * 6400 + 1 * q.val = 6400 * k.val + q.val
    rw [(idx0 t).2, hk]; omega

/-- The target block of point t at (r, 0) is the target column at row 512·(t/5) + r. -/
theorem tblk_apply (c : Dev nD) (t : Fin cfg0.N) (i0 : ℕ) (hi : i0 = t.val / 5) (r : Fin 512) :
    tblk m c t (ix2 r (0 : Fin 1)) = tarr m c (ix2 (rowN i0 r) (0 : Fin 1)) := by
  have ht := lt40 t
  show iblk m c 1 t (ix2 r (0 : Fin 1)) = _
  unfold iblk
  rw [View.read_apply]
  show V m c main_v0 _ = V m c main_v0 _
  congr 1
  funext a
  apply Fin.ext
  match a with
  | ⟨0, _⟩ =>
    show win0_1.index t 0 * 512 + 1 * r.val = (512 * i0 + r.val) % 4096
    rw [(idx1 t).1, hi, Nat.mod_eq_of_lt (by have := r.isLt; omega)]; omega
  | ⟨1, _⟩ =>
    show win0_1.index t 1 * 1 + 1 * 0 = 0
    rw [(idx1 t).2]

/-- The sum of the l-values of row 512·i0 + r over column block k, -/
def Bsum (c : Dev nD) (i0 : ℕ) (r : Fin 512) (k : Fin 5) : EReal :=
  ∑ q : Fin 6400, lsK (xarr m c (ix2 (rowN i0 r) (col k q)))
/-- and the sum of those of them at the row's target column. -/
def Btgt (c : Dev nD) (i0 : ℕ) (r : Fin 512) (k : Fin 5) : EReal :=
  ∑ q : Fin 6400, if (col k q).val = (tarr m c (ix2 (rowN i0 r) (0 : Fin 1))).toNat
    then lsK (xarr m c (ix2 (rowN i0 r) (col k q))) else 0

theorem sum_blk (c : Dev nD) (t : Fin cfg0.N) (i0 : ℕ) (k : Fin 5) (hi : i0 = t.val / 5) (hk : k.val = t.val % 5) (r : Fin 512) :
    ∑ q : Fin 6400, lsK (xblk m c t (ix2 r q)) = Bsum m c i0 r k :=
  Finset.sum_congr rfl fun q _ => by rw [xblk_apply m c t i0 k hi hk]

theorem tgt_blk (c : Dev nD) (t : Fin cfg0.N) (i0 : ℕ) (k : Fin 5) (hi : i0 = t.val / 5) (hk : k.val = t.val % 5) (r : Fin 512) :
    (∑ q : Fin 6400, if 6400 * ((grid0.coords t) 1).val + q.val = (tblk m c t (ix2 r (0 : Fin 1))).toNat
        then lsK (xblk m c t (ix2 r q)) else 0) = Btgt m c i0 r k := by
  unfold Btgt
  refine Finset.sum_congr rfl fun q _ => ?_
  rw [xblk_apply m c t i0 k hi hk, tblk_apply m c t i0 hi, coord1 t, ← hk]
  rfl

/-- What the point before left in the two buffers. -/
abbrev prevS (c : Dev nD) (t : Fin cfg0.N) : Vec Ideal S512x1 .f32 :=
  (outsAt0 m c (t.val - 1) (Nat.lt_of_le_of_lt (Nat.sub_le _ _) t.isLt)).2.1
abbrev prevT (c : Dev nD) (t : Fin cfg0.N) : Vec Ideal S512x1 .f32 :=
  (outsAt0 m c (t.val - 1) (Nat.lt_of_le_of_lt (Nat.sub_le _ _) t.isLt)).2.2

/-- The first column block of a row block: both buffers start at their first block's sum. -/
theorem stepA (c : Dev nD) (t : Fin cfg0.N) (h0 : t.val % 5 = 0) (r : Fin 512) :
    (outsAt0 m c t.val t.isLt).2.1 (ix2 r (0 : Fin 1)) = upTo (Bsum m c (t.val / 5) r) (t.val % 5)
    ∧ (outsAt0 m c t.val t.isLt).2.2 (ix2 r (0 : Fin 1)) = upTo (Btgt m c (t.val / 5) r) (t.val % 5) := by
  have h1 : ¬t.val % 5 = 4 := by omega
  rw [outsAt0_A m c t h0 h1]
  dsimp only
  have eS : upTo (Bsum m c (t.val / 5) r) (t.val % 5) = Bsum m c (t.val / 5) r 0 := by rw [h0, upTo_zero]
  have eT : upTo (Btgt m c (t.val / 5) r) (t.val % 5) = Btgt m c (t.val / 5) r 0 := by rw [h0, upTo_zero]
  rw [eS, eT]
  constructor
  · refine (congrFun (sumA_0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (tblk m c t)) (ix2 r (0 : Fin 1))).trans ?_
    rw [pay6_apply, pay3_apply, zero_add]
    exact sum_blk m c t (t.val / 5) 0 rfl (by rw [h0]; rfl) r
  · refine (congrFun (tgtA_1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (xblk m c t) (tblk m c t)) (ix2 r (0 : Fin 1))).trans ?_
    rw [tgt_step, pay4_apply, zero_add]
    exact tgt_blk m c t (t.val / 5) 0 rfl (by rw [h0]; rfl) r

/-- A later column block adds its own sums to what the block before left. -/
theorem stepBC (c : Dev nD) (t : Fin cfg0.N) (h0 : ¬t.val % 5 = 0) (r : Fin 512)
    (ih : prevS m c t (ix2 r (0 : Fin 1)) = upTo (Bsum m c ((t.val - 1) / 5) r) ((t.val - 1) % 5)
      ∧ prevT m c t (ix2 r (0 : Fin 1)) = upTo (Btgt m c ((t.val - 1) / 5) r) ((t.val - 1) % 5)) :
    (outsAt0 m c t.val t.isLt).2.1 (ix2 r (0 : Fin 1)) = upTo (Bsum m c (t.val / 5) r) (t.val % 5)
    ∧ (outsAt0 m c t.val t.isLt).2.2 (ix2 r (0 : Fin 1)) = upTo (Btgt m c (t.val / 5) r) (t.val % 5) := by
  obtain ⟨j, hj⟩ : ∃ j, t.val % 5 = j + 1 := ⟨t.val % 5 - 1, by omega⟩
  have hj5 : j + 1 < 5 := by have := Nat.mod_lt t.val (by norm_num : 0 < 5); omega
  have e1 : (t.val - 1) / 5 = t.val / 5 := by omega
  have e2 : (t.val - 1) % 5 = j := by omega
  rw [e1, e2] at ih
  have eS : upTo (Bsum m c (t.val / 5) r) (t.val % 5)
      = prevS m c t (ix2 r (0 : Fin 1)) + Bsum m c (t.val / 5) r ⟨j + 1, hj5⟩ := by rw [hj, upTo_succ _ j hj5, ← ih.1]
  have eT : upTo (Btgt m c (t.val / 5) r) (t.val % 5)
      = prevT m c t (ix2 r (0 : Fin 1)) + Btgt m c (t.val / 5) r ⟨j + 1, hj5⟩ := by rw [hj, upTo_succ _ j hj5, ← ih.2]
  rw [eS, eT]
  by_cases h1 : t.val % 5 = 4
  · rw [outsAt0_C m c t h0 h1]
    dsimp only
    constructor
    · refine (congrFun (sumC_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (tblk m c t) (prevS m c t) (prevT m c t)) (ix2 r (0 : Fin 1))).trans ?_
      rw [pay6_apply]
      exact congrArg (prevS m c t (ix2 r (0 : Fin 1)) + ·) (sum_blk m c t (t.val / 5) ⟨j + 1, hj5⟩ rfl hj.symm r)
    · refine (congrFun (tgtC_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (xblk m c t) (tblk m c t) (prevS m c t) (prevT m c t)) (ix2 r (0 : Fin 1))).trans ?_
      rw [tgt_step]
      exact congrArg (prevT m c t (ix2 r (0 : Fin 1)) + ·) (tgt_blk m c t (t.val / 5) ⟨j + 1, hj5⟩ rfl hj.symm r)
  · rw [outsAt0_B m c t h0 h1]
    dsimp only
    constructor
    · refine (congrFun (sumB_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xblk m c t) (tblk m c t) (prevS m c t) (prevT m c t)) (ix2 r (0 : Fin 1))).trans ?_
      rw [pay6_apply]
      exact congrArg (prevS m c t (ix2 r (0 : Fin 1)) + ·) (sum_blk m c t (t.val / 5) ⟨j + 1, hj5⟩ rfl hj.symm r)
    · refine (congrFun (tgtB_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (xblk m c t) (tblk m c t) (prevS m c t) (prevT m c t)) (ix2 r (0 : Fin 1))).trans ?_
      rw [tgt_step]
      exact congrArg (prevT m c t (ix2 r (0 : Fin 1)) + ·) (tgt_blk m c t (t.val / 5) ⟨j + 1, hj5⟩ rfl hj.symm r)

/-- After every point: the running totals up to the point's column block. -/
theorem inv (c : Dev nD) : ∀ (n : ℕ) (h : n < cfg0.N) (r : Fin 512),
    (outsAt0 m c n h).2.1 (ix2 r (0 : Fin 1)) = upTo (Bsum m c (n / 5) r) (n % 5)
    ∧ (outsAt0 m c n h).2.2 (ix2 r (0 : Fin 1)) = upTo (Btgt m c (n / 5) r) (n % 5)
  | 0, h, r => stepA m c ⟨0, h⟩ rfl r
  | n + 1, h, r => by
    by_cases h0 : (n + 1) % 5 = 0
    · exact stepA m c ⟨n + 1, h⟩ h0 r
    · exact stepBC m c ⟨n + 1, h⟩ h0 r (inv c n (Nat.lt_of_succ_lt h) r)

end Cert.KernelValue

end
-- ==== Proof.KernelValue.lean ====
/-
  The kernel's result is the row loss G.

  At the last column block of row block i the output block holds, for its row r, the difference of the two running
  totals over 32000; the totals are then the sums over all five column blocks, that is over the row's 32000 columns.
  So every write-back is a block of ONE column function (`lossCol`: row b ↦ the loss of row b); the eight flushing
  points' blocks cover the 4096 rows, so the output array ends at that function, and the reshape after the region
  reads it as a one-axis array. The target column the region finds is the reshape of the integer argument.
-/
import proofs.«400454_j16999480557993_1_alg».proof.Proof.KernelInv
import proofs.«400454_j16999480557993_1_alg».proof.Proof.Spec
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelValue

open Cert.KernelIdeal Cert.KernelIdeal.Gen Idealize.ShloMosaic.ValueIdx Cert.LogSigmoid Cert.RowBlocks
open scoped BigOperators

variable (m : (ℓ : Loc nD τ sig) → Buf (Elt Ideal) ℓ) (ρ : Dev nD → PrngReg)

/-- The loss of row b, over the arrays as the region finds them. -/
def loss (c : Dev nD) (b : Fin 4096) : EReal :=
  Ideal.div ((∑ c' : Fin 32000, if c'.val = (tarr m c (ix2 b (0 : Fin 1))).toNat then lsK (xarr m c (ix2 b c')) else 0)
      - ∑ c' : Fin 32000, lsK (xarr m c (ix2 b c')))
    (Ideal.ofBits .f32 0x46FA0000#32)

/-- The output column: row b holds the loss of row b. -/
def lossCol (c : Dev nD) : Vec Ideal S4096x1 .f32 := fun i => loss m c (i 0)

/-- At the last column block of a row block the output block's row r is the loss of row 512·(t/5) + r. -/
theorem out_last (c : Dev nD) (t : Fin cfg0.N) (h4 : t.val % 5 = 4) (r : Fin 512) :
    (outsAt0 m c t.val t.isLt).1 (ix2 r (0 : Fin 1)) = loss m c (rowN (t.val / 5) r) := by
  have h0 : ¬t.val % 5 = 0 := by omega
  have hinv := inv m c t.val t.isLt r
  have hS : (outsAt0 m c t.val t.isLt).2.1 = k0_pay6 (F := Ideal) (xblk m c t) (prevS m c t) := by
    rw [outsAt0_C m c t h0 h4]
    dsimp only
    exact sumC_0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h4) (xblk m c t) (tblk m c t) (prevS m c t) (prevT m c t)
  have hT : (outsAt0 m c t.val t.isLt).2.2
      = k0_pay1 (F := Ideal) (k0_pay5 (xblk m c t)) (k0_pay7 (grid0.coords t) (tblk m c t)) (prevT m c t) := by
    rw [outsAt0_C m c t h0 h4]
    dsimp only
    exact tgtC_1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h4) (xblk m c t) (tblk m c t) (prevS m c t) (prevT m c t)
  have eS : upTo (Bsum m c (t.val / 5) r) (t.val % 5) = ∑ k, Bsum m c (t.val / 5) r k := by rw [h4, upTo_four]
  have eT : upTo (Btgt m c (t.val / 5) r) (t.val % 5) = ∑ k, Btgt m c (t.val / 5) r k := by rw [h4, upTo_four]
  have hO : (outsAt0 m c t.val t.isLt).1
      = k0_pay2 (F := Ideal) (outsAt0 m c t.val t.isLt).2.2 (outsAt0 m c t.val t.isLt).2.1 := by
    rw [hS, hT, outsAt0_C m c t h0 h4]
    dsimp only
    exact outC_2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h4) (xblk m c t) (tblk m c t) (prevS m c t) (prevT m c t)
  rw [hO, pay2_apply, hinv.1, hinv.2, eS, eT]
  unfold loss Bsum Btgt
  rw [sum_blocks (fun c' : Fin 32000 => if c'.val = (tarr m c (ix2 (rowN (t.val / 5) r) (0 : Fin 1))).toNat
        then lsK (xarr m c (ix2 (rowN (t.val / 5) r) c')) else 0),
    sum_blocks (fun c' : Fin 32000 => lsK (xarr m c (ix2 (rowN (t.val / 5) r) c')))]

theorem idx2 : ∀ t : Fin cfg0.N, win0_2.index t 0 = t.val / 5 ∧ win0_2.index t 1 = 0 :=
  (by decide +kernel : ∀ t : Fin grid0.N, win0_2.index t 0 = t.val / 5 ∧ win0_2.index t 1 = 0)

/-- What a flushing point writes back is its block of the output column. -/
theorem flushed_eq (c : Dev nD) (t : Fin cfg0.N) (hf : (cfg0.win 2).flush t = true) :
    (dats m 0 c).flushed 2 t = ((cfg0.win 2).blk t).view.read (Elt Ideal) (lossCol m c) := by
  have h4 : t.val % 5 = 4 := (flush0_2 t).mp hf
  have ht := lt40 t
  show (cfg0.win 2).cut (grid0.coords t) ((dats m 0 c).after 2 t) = _
  rw [after0_2]
  funext j
  show (outsAt0 m c t.val t.isLt).1 j = lossCol m c (((cfg0.win 2).blk t).view.emb j)
  have hj0 : (j 0).val < 512 := (j 0).isLt
  have hj1 : (j 1).val < 1 := (j 1).isLt
  have hj : j = ix2 (⟨(j 0).val, hj0⟩ : Fin 512) (0 : Fin 1) := funext fun a => Fin.ext (by
    match a with
    | ⟨0, _⟩ => rfl
    | ⟨1, _⟩ => show (j 1).val = 0; omega)
  refine (congrArg (outsAt0 m c t.val t.isLt).1 hj).trans ((out_last m c t h4 ⟨(j 0).val, hj0⟩).trans ?_)
  unfold lossCol
  refine congrArg (loss m c) (Fin.ext ?_)
  show (512 * (t.val / 5) + (j 0).val) % 4096 = win0_2.index t 0 * 512 + 1 * (j 0).val
  rw [(idx2 t).1, Nat.mod_eq_of_lt (by omega)]; omega

/-- An index of the output array is in point t's block iff each coordinate is in the block's range on its axis. -/
theorem mem_blk (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v1).slice (win0_2.rect t)).set ↔ _
  rw [View.set_slice_whole, Rect.mem_set_unit]
  exact Iff.rfl

/-- Row i lies in the block the last point of its row block writes back. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 40 := N_0
  let t : Fin cfg0.N := ⟨5 * ((i 0).val / 512) + 4, by rw [hN]; omega⟩
  have htv : t.val = 5 * ((i 0).val / 512) + 4 := rfl
  refine ⟨t, (flush0_2 t).mpr (by rw [htv]; omega), ?_⟩
  rw [mem_blk]
  intro a
  match a with
  | ⟨0, _⟩ =>
    show win0_2.index t 0 * 512 ≤ (i 0).val ∧ (i 0).val < win0_2.index t 0 * 512 + 512
    rw [(idx2 t).1, htv]; omega
  | ⟨1, _⟩ =>
    show win0_2.index t 1 * 1 ≤ (i 1).val ∧ (i 1).val < win0_2.index t 1 * 1 + 1
    rw [(idx2 t).2]; omega

/-- So the output array ends at the output column. -/
theorem final (c : Dev nD) : (dats m 0 c).arrAt 2 cfg0.N = lossCol m c :=
  (dats m 0 c).arrAt_eq_of_cover 2 (lossCol m c) (fun t hf => flushed_eq m c t hf) cover

/-- The target column the region finds is the integer argument with a unit axis added. -/
theorem tarr_eq (c : Dev nD) :
    tarr m c = shapeCast S4096x1 (m ((c : Thread nD τ).loc main_arg1)) shapeCasts_S4096_S4096x1 := by
  show StableHlo.after hostOps0 (fun b => m (c, b)) (Proc.devRef .tc main_v0) = _
  after_results
  rfl

theorem tarr_apply (c : Dev nD) (b : Fin 4096) :
    tarr m c (ix2 b (0 : Fin 1)) = m ((c : Thread nD τ).loc main_arg1) (ix1 b) := by
  rw [tarr_eq]
  exact shapeCast_apply _ shapeCasts_S4096_S4096x1 (ix2 b (0 : Fin 1)) (ix1 b) (by
    rw [Shape.rowMajor_val_two, Shape.rowMajor_val_one]; show b.val = b.val * 1 + 0; omega)

/-- The loss over the arrays the region finds is G of the two arguments. -/
theorem loss_eq_G (c : Dev nD) (b : Fin 4096) :
    loss m c b = Cert.Spec.G (m ((c : Thread nD τ).loc main_arg0)) (m ((c : Thread nD τ).loc main_arg1)) (ix1 b) := by
  unfold loss Cert.Spec.G
  rw [tarr_apply]
  show Ideal.div ((∑ c' : Fin 32000, if c'.val = _ then lsK (V m c main_arg0 (ix2 b c')) else 0)
      - ∑ c' : Fin 32000, lsK (V m c main_arg0 (ix2 b c'))) _ = _
  rw [V_main_arg0]

/-- The result after the reshape that follows the region. -/
theorem tail_eq (c : Dev nD) :
    Pipeline.afterTail₀ cfgs (dats m) 0 (V0 m) [hostOps1] c main_v2
      = Cert.Spec.G (m ((c : Thread nD τ).loc main_arg0)) (m ((c : Thread nD τ).loc main_arg1)) := by
  unfold Pipeline.afterTail₀
  show StableHlo.after hostOps1 _ (Proc.devRef .tc main_v2) = _
  after_results
  funext j
  obtain ⟨b, rfl⟩ : ∃ b : Fin 4096, j = ix1 b := ⟨j 0, eq_ix1 j⟩
  refine (shapeCast_apply _ shapeCasts_S4096x1_S4096 (ix1 b) (ix2 b (0 : Fin 1)) (by
    rw [Shape.rowMajor_val_two, Shape.rowMajor_val_one]; show b.val * 1 + 0 = b.val; omega)).trans ?_
  rw [show Pipeline.withArrays spec0 c (V0 m c) (fun w => (dats m 0 c).arrAt w cfg0.N) (Proc.devRef .tc main_v1) = lossCol m c from
    (Pipeline.withArrays_arr spec0 launch0.win.arr_inj c _ _ 2).trans (final m c)]
  exact loss_eq_G m c b

/-- Every weakly fair execution of the idealized kernel ends with its result at G of the two arguments, the arguments
    unchanged. -/
theorem run :
    θ_run (defs (F := Ideal)) (onTc (τ := τ) (main (F := Ideal))) ⟨m, fun _ => 0, ρ⟩ (fun r => ∀ c : Dev nD,
      r.2.mem ((c.tc : Thread nD τ).loc main_v2)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelValue

end
-- ==== Proof.lean ====
/- The two programs compute one row loss.

   Row b of the result is ( l(x b t_b) − Σ_c l(x b c) ) / 32000 with l = log ∘ logistic and t_b the row's target column
   (`Spec.G`). The kernel accumulates the two sums over five column blocks per row block and divides at the last block
   (`KernelValue.run`); the reference zeroes the target entry of every row, sums, negates and divides
   (`RefValue.ref_eq_G`). The two agree where every input entry is a real number and every target is a column number
   of its row, which is what the precondition says entry by entry (`PreDecode`). -/
import proofs.«400454_j16999480557993_1_alg».proof.Defs
import proofs.«400454_j16999480557993_1_alg».proof.Proof.Gen.Kernel
import proofs.«400454_j16999480557993_1_alg».proof.Proof.Gen.Kernel.Skeleton
import proofs.«400454_j16999480557993_1_alg».proof.Proof.Gen.Kernel.Launch
import proofs.«400454_j16999480557993_1_alg».proof.Proof.Gen.Kernel.Points
import proofs.«400454_j16999480557993_1_alg».proof.Proof.Gen.Kernel.Frame
import proofs.«400454_j16999480557993_1_alg».proof.Proof.Gen.KernelIdeal
import proofs.«400454_j16999480557993_1_alg».proof.Proof.Gen.KernelIdeal.Skeleton
import proofs.«400454_j16999480557993_1_alg».proof.Proof.Gen.KernelIdeal.Launch
import proofs.«400454_j16999480557993_1_alg».proof.Proof.Gen.KernelIdeal.Points
import proofs.«400454_j16999480557993_1_alg».proof.Proof.Gen.KernelIdeal.Frame
import proofs.«400454_j16999480557993_1_alg».proof.Proof.Gen.ReferenceIdeal
import proofs.«400454_j16999480557993_1_alg».proof.Proof.Gen.Pre_finite_inputs
import proofs.«400454_j16999480557993_1_alg».proof.Proof.Gen.ReferenceIdeal.Run
import proofs.«400454_j16999480557993_1_alg».proof.Proof.Gen.ReferenceIdeal.Read
import proofs.«400454_j16999480557993_1_alg».proof.Proof.PreDecode
import proofs.«400454_j16999480557993_1_alg».proof.Proof.RefValue
import proofs.«400454_j16999480557993_1_alg».proof.Proof.KernelValue
import Idealize.ShloMosaic.Adequacy
import Idealize.ShloMosaic.Init

noncomputable section

namespace Cert.Proof

open Idealize.ShloMosaic Idealize.SL.Sem Cert.Kernel

/-- The three programs run and keep their arguments: the two kernels by their frames, the reference by its run. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end at the row loss of those arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact Cert.RefValue.ref_eq_G _ _ (Cert.PreDecode.finite_of_pre _ _ (hpre c)) (Cert.PreDecode.range_of_pre _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
